-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32x4 : Shape := ⟨3, ![200000, 32, 4]⟩
abbrev S200000x4 : Shape := ⟨2, ![200000, 4]⟩
abbrev S200000 : Shape := ⟨1, ![200000]⟩
abbrev S_ : Shape := ⟨0, ![]⟩

class Facts : Prop where
  bcast_S_S200000x32x4 : S_.BroadcastsInDim S200000x32x4 (![] : Fin 0 → Fin S200000x32x4.rank)
  reducesTo_S200000x32x4_S_d0_1_2 : S200000x32x4.ReducesTo [0, 1, 2] S_
  h_S_ : 0 < S_.numel

variable [Facts]

def fn {F : FTy → Type} [FloatOps F] (main_arg0 : FVec F S200000x32x4 .f32) (main_arg1 : IVec S200000x4 32) (main_arg2 : IVec S200000 32) : IVec S_ 1 :=
  let main_v0 : FVec F S200000x32x4 .f32 := Host.absf main_arg0
  let main_cst : FVec F S_ .f32 := constant S_ .f32 0x7F800000#32
  let main_v1 : FVec F S200000x32x4 .f32 := broadcastInDim S200000x32x4 ![] bcast_S_S200000x32x4 main_cst
  let main_v2 : IVec S200000x32x4 1 := cmpf .olt main_v0 main_v1
  let main_c : IVec S_ 1 := constantI S_ 1 1#1
  let main_v3 : IVec S_ 1 := (fun x v => Host.reduce IntOp.andi x v reducesTo_S200000x32x4_S_d0_1_2 h_S_) main_v2 main_c
  main_v3
-- ==== Kernel.lean ====
abbrev S200000x32x4 : Shape := ⟨3, ![200000, 32, 4]⟩
abbrev S200000x4 : Shape := ⟨2, ![200000, 4]⟩
abbrev S200000 : Shape := ⟨1, ![200000]⟩
abbrev S200000x1 : Shape := ⟨2, ![200000, 1]⟩
abbrev S200000x9x32 : Shape := ⟨3, ![200000, 9, 32]⟩
abbrev S400x32x4 : Shape := ⟨3, ![400, 32, 4]⟩
abbrev S400x4 : Shape := ⟨2, ![400, 4]⟩
abbrev S400x1 : Shape := ⟨2, ![400, 1]⟩
abbrev S400x9x32 : Shape := ⟨3, ![400, 9, 32]⟩
abbrev S400x32x1 : Shape := ⟨3, ![400, 32, 1]⟩
abbrev S400x32 : Shape := ⟨2, ![400, 32]⟩
abbrev S400 : Shape := ⟨1, ![400]⟩
abbrev S400x1x32 : Shape := ⟨3, ![400, 1, 32]⟩

abbrev nBuf : Space → Nat
  | .hbm => 5
  | .vmem => 8
  | .smem => 0
  | _ => 0

abbrev bufTy : (tb : Table) → Fin (tcTables nBuf tb) → BufTy
  | .hbm, ⟨0, _⟩ => ⟨S200000x32x4, .f32⟩
  | .hbm, ⟨1, _⟩ => ⟨S200000x4, .i32⟩
  | .hbm, ⟨2, _⟩ => ⟨S200000, .i32⟩
  | .hbm, ⟨3, _⟩ => ⟨S200000x1, .i32⟩
  | .hbm, ⟨4, _⟩ => ⟨S200000x9x32, .f32⟩
  | .local _ .vmem, ⟨0, _⟩ => ⟨S400x32x4, .f32⟩
  | .local _ .vmem, ⟨1, _⟩ => ⟨S400x32x4, .f32⟩
  | .local _ .vmem, ⟨2, _⟩ => ⟨S400x4, .i32⟩
  | .local _ .vmem, ⟨3, _⟩ => ⟨S400x4, .i32⟩
  | .local _ .vmem, ⟨4, _⟩ => ⟨S400x1, .i32⟩
  | .local _ .vmem, ⟨5, _⟩ => ⟨S400x1, .i32⟩
  | .local _ .vmem, ⟨6, _⟩ => ⟨S400x9x32, .f32⟩
  | .local _ .vmem, ⟨7, _⟩ => ⟨S400x9x32, .f32⟩
  | _, _ => ⟨S200000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x9x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S200000_S200000x1 : S200000.ShapeCasts S200000x1
  inb_S400x32x4_S400x32x4_0_0_0 : ∀ a, (![0, 0, 0] : Fin 3 → Nat) a + S400x32x4.size a ≤ S400x32x4.size a
  h_S400x32x4 : 0 < S400x32x4.numel
  slices_S400x32x4_o0_0_0_S400x32x1 : S400x32x4.Slices ![0, 0, 0] S400x32x1
  shapeCasts_S400x32x1_S400x32 : S400x32x1.ShapeCasts S400x32
  slices_S400x32x4_o0_0_1_S400x32x1 : S400x32x4.Slices ![0, 0, 1] S400x32x1
  slices_S400x32x4_o0_0_2_S400x32x1 : S400x32x4.Slices ![0, 0, 2] S400x32x1
  slices_S400x32x4_o0_0_3_S400x32x1 : S400x32x4.Slices ![0, 0, 3] S400x32x1
  inb_S400x1_S400x1_0_0 : ∀ a, (![0, 0] : Fin 2 → Nat) a + S400x1.size a ≤ S400x1.size a
  h_S400x1 : 0 < S400x1.numel
  shapeCasts_S400x1_S400x1 : S400x1.ShapeCasts S400x1
  reduces_S400x32_S400 : S400x32.Reduces [1] S400
  shapeCasts_S400_S400x1 : S400.ShapeCasts S400x1
  inb_S400x4_S400x4_0_0 : ∀ a, (![0, 0] : Fin 2 → Nat) a + S400x4.size a ≤ S400x4.size a
  h_S400x4 : 0 < S400x4.numel
  slices_S400x4_o0_1_S400x1 : S400x4.Slices ![0, 1] S400x1
  slices_S400x4_o0_2_S400x1 : S400x4.Slices ![0, 2] S400x1
  broadcasts_S400x1_S400x32 : S400x1.Broadcasts S400x32
  iota_S400x32_d1_w32 : S400x32.Iotas .tc 32 [1]
  natLt_1_32 : 1 < 32
  inb_S400x9x32_S400x1x32_0_0_0 : ∀ a, (![0, 0, 0] : Fin 3 → Nat) a + S400x1x32.size a ≤ S400x9x32.size a
  h_S400x1x32 : 0 < S400x1x32.numel
  shapeCasts_S400x1x32_S400x32 : S400x1x32.ShapeCasts S400x32
  shapeCasts_S400x32_S400x1x32 : S400x32.ShapeCasts S400x1x32
  inb_S400x9x32_S400x1x32_0_1_0 : ∀ a, (![0, 1, 0] : Fin 3 → Nat) a + S400x1x32.size a ≤ S400x9x32.size a
  inb_S400x9x32_S400x1x32_0_2_0 : ∀ a, (![0, 2, 0] : Fin 3 → Nat) a + S400x1x32.size a ≤ S400x9x32.size a
  inb_S400x9x32_S400x1x32_0_3_0 : ∀ a, (![0, 3, 0] : Fin 3 → Nat) a + S400x1x32.size a ≤ S400x9x32.size a
  inb_S400x9x32_S400x1x32_0_4_0 : ∀ a, (![0, 4, 0] : Fin 3 → Nat) a + S400x1x32.size a ≤ S400x9x32.size a
  inb_S400x9x32_S400x1x32_0_5_0 : ∀ a, (![0, 5, 0] : Fin 3 → Nat) a + S400x1x32.size a ≤ S400x9x32.size a
  inb_S400x9x32_S400x1x32_0_6_0 : ∀ a, (![0, 6, 0] : Fin 3 → Nat) a + S400x1x32.size a ≤ S400x9x32.size a
  inb_S400x9x32_S400x1x32_0_7_0 : ∀ a, (![0, 7, 0] : Fin 3 → Nat) a + S400x1x32.size a ≤ S400x9x32.size a
  inb_S400x9x32_S400x1x32_0_8_0 : ∀ a, (![0, 8, 0] : Fin 3 → Nat) a + S400x1x32.size a ≤ S400x9x32.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x4.size a ≤ S200000x32x4.size a
  hwx0_0 : ∀ i : grid0.Coords, EltTy.bits .f32 = 32 ∨ (Rect.block (s := S200000x32x4) S400x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4.size a ≤ S200000x4.size a
  hwx0_1 : ∀ i : grid0.Coords, EltTy.bits .i32 = 32 ∨ (Rect.block (s := S200000x4) S400x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S200000x1.size a
  hwx0_2 : ∀ i : grid0.Coords, EltTy.bits .i32 = 32 ∨ (Rect.block (s := S200000x1) S400x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x9x32.size a ≤ S200000x9x32.size a
  hwx0_3 : ∀ i : grid0.Coords, EltTy.bits .f32 = 32 ∨ (Rect.block (s := S200000x9x32) S400x9x32.size (cc0_transform_3 i) (hinb0_3 i)).WholeWords (EltTy.packing .f32)

variable [Facts₀]

abbrev win0_0 : Pipeline.Window sig grid0 :=
  Pipeline.Window.ofSpec (Memref.whole main_arg0) S400x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x9x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x32x4 : Shape := ⟨3, ![200000, 32, 4]⟩
abbrev S200000x4 : Shape := ⟨2, ![200000, 4]⟩
abbrev S200000 : Shape := ⟨1, ![200000]⟩
abbrev S200000x32x3 : Shape := ⟨3, ![200000, 32, 3]⟩
abbrev S_ : Shape := ⟨0, ![]⟩
abbrev S200000x3 : Shape := ⟨2, ![200000, 3]⟩
abbrev S200000x1x3 : Shape := ⟨3, ![200000, 1, 3]⟩
abbrev S200000x1x1 : Shape := ⟨3, ![200000, 1, 1]⟩
abbrev S200000x1 : Shape := ⟨2, ![200000, 1]⟩
abbrev S200000x32x1 : Shape := ⟨3, ![200000, 32, 1]⟩
abbrev S200000x32x2 : Shape := ⟨3, ![200000, 32, 2]⟩
abbrev S200000x32x9 : Shape := ⟨3, ![200000, 32, 9]⟩
abbrev S32 : Shape := ⟨1, ![32]⟩
abbrev S1x32 : Shape := ⟨2, ![1, 32]⟩
abbrev S200000x32 : Shape := ⟨2, ![200000, 32]⟩
abbrev S200000x9x32 : Shape := ⟨3, ![200000, 9, 32]⟩

abbrev nBuf : Space → Nat
  | .hbm => 51
  | .vmem => 0
  | .smem => 0
  | _ => 0

abbrev bufTy : (tb : Table) → Fin (tcTables nBuf tb) → BufTy
  | .hbm, ⟨0, _⟩ => ⟨S200000x32x4, .f32⟩
  | .hbm, ⟨1, _⟩ => ⟨S200000x4, .i32⟩
  | .hbm, ⟨2, _⟩ => ⟨S200000, .i32⟩
  | .hbm, ⟨3, _⟩ => ⟨S200000, .f32⟩
  | .hbm, ⟨4, _⟩ => ⟨S200000x32x3, .f32⟩
  | .hbm, ⟨5, _⟩ => ⟨S_, .f32⟩
  | .hbm, ⟨6, _⟩ => ⟨S200000x3, .f32⟩
  | .hbm, ⟨7, _⟩ => ⟨S200000x1x3, .f32⟩
  | .hbm, ⟨8, _⟩ => ⟨S200000x1x1, .f32⟩
  | .hbm, ⟨9, _⟩ => ⟨S200000x1x3, .f32⟩
  | .hbm, ⟨10, _⟩ => ⟨S200000x1x3, .f32⟩
  | .hbm, ⟨11, _⟩ => ⟨S200000x32x3, .f32⟩
  | .hbm, ⟨12, _⟩ => ⟨S200000x32x3, .f32⟩
  | .hbm, ⟨13, _⟩ => ⟨S200000x32x3, .f32⟩
  | .hbm, ⟨14, _⟩ => ⟨S200000x1, .i32⟩
  | .hbm, ⟨15, _⟩ => ⟨S200000x1x1, .i32⟩
  | .hbm, ⟨16, _⟩ => ⟨S200000x1x1, .f32⟩
  | .hbm, ⟨17, _⟩ => ⟨S_, .f32⟩
  | .hbm, ⟨18, _⟩ => ⟨S200000x1x1, .f32⟩
  | .hbm, ⟨19, _⟩ => ⟨S200000x1x1, .f32⟩
  | .hbm, ⟨20, _⟩ => ⟨S_, .f32⟩
  | .hbm, ⟨21, _⟩ => ⟨S200000x1x1, .f32⟩
  | .hbm, ⟨22, _⟩ => ⟨S200000x1x1, .f32⟩
  | .hbm, ⟨23, _⟩ => ⟨S200000x1, .i32⟩
  | .hbm, ⟨24, _⟩ => ⟨S200000x1x1, .i32⟩
  | .hbm, ⟨25, _⟩ => ⟨S200000x1x1, .f32⟩
  | .hbm, ⟨26, _⟩ => ⟨S_, .f32⟩
  | .hbm, ⟨27, _⟩ => ⟨S200000x1x1, .f32⟩
  | .hbm, ⟨28, _⟩ => ⟨S200000x1x1, .f32⟩
  | .hbm, ⟨29, _⟩ => ⟨S_, .f32⟩
  | .hbm, ⟨30, _⟩ => ⟨S200000x1x1, .f32⟩
  | .hbm, ⟨31, _⟩ => ⟨S200000x1x1, .f32⟩
  | .hbm, ⟨32, _⟩ => ⟨S200000x32x1, .f32⟩
  | .hbm, ⟨33, _⟩ => ⟨S200000x32x1, .f32⟩
  | .hbm, ⟨34, _⟩ => ⟨S200000x32x1, .f32⟩
  | .hbm, ⟨35, _⟩ => ⟨S200000x32x1, .f32⟩
  | .hbm, ⟨36, _⟩ => ⟨S200000x32x1, .f32⟩
  | .hbm, ⟨37, _⟩ => ⟨S200000x32x1, .f32⟩
  | .hbm, ⟨38, _⟩ => ⟨S200000x32x2, .f32⟩
  | .hbm, ⟨39, _⟩ => ⟨S200000x32x9, .f32⟩
  | .hbm, ⟨40, _⟩ => ⟨S32, .i32⟩
  | .hbm, ⟨41, _⟩ => ⟨S1x32, .i32⟩
  | .hbm, ⟨42, _⟩ => ⟨S200000x1, .i32⟩
  | .hbm, ⟨43, _⟩ => ⟨S200000x32, .i32⟩
  | .hbm, ⟨44, _⟩ => ⟨S200000x32, .i32⟩
  | .hbm, ⟨45, _⟩ => ⟨S200000x32, .i1⟩
  | .hbm, ⟨46, _⟩ => ⟨S200000x32x1, .i1⟩
  | .hbm, ⟨47, _⟩ => ⟨S200000x32x1, .f32⟩
  | .hbm, ⟨48, _⟩ => ⟨S200000x32x9, .f32⟩
  | .hbm, ⟨49, _⟩ => ⟨S200000x32x9, .f32⟩
  | .hbm, ⟨50, _⟩ => ⟨S200000x9x32, .f32⟩
  | _, _ => ⟨S200000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]

class Facts₀ : Prop where
  slices_S200000x32x4_S200000x32x3_0_0_0 : S200000x32x4.Slices ![0, 0, 0] S200000x32x3
  reducesTo_S200000x32x3_S200000x3_d1 : S200000x32x3.ReducesTo [1] S200000x3
  h_S_ : 0 < S_.numel
  bcast_S200000x3_S200000x1x3_0_2 : S200000x3.BroadcastsInDim S200000x1x3 (![0, 2] : Fin 2 → Fin S200000x1x3.rank)
  bcast_S200000_S200000x1x1_0 : S200000.BroadcastsInDim S200000x1x1 (![0] : Fin 1 → Fin S200000x1x1.rank)
  bcast_S200000x1x1_S200000x1x3_0_1_2 : S200000x1x1.BroadcastsInDim S200000x1x3 (![0, 1, 2] : Fin 3 → Fin S200000x1x3.rank)
  bcast_S200000x1x3_S200000x32x3_0_1_2 : S200000x1x3.BroadcastsInDim S200000x32x3 (![0, 1, 2] : Fin 3 → Fin S200000x32x3.rank)
  slices_S200000x4_S200000x1_0_1 : S200000x4.Slices ![0, 1] S200000x1
  bcast_S200000x1_S200000x1x1_0_2 : S200000x1.BroadcastsInDim S200000x1x1 (![0, 2] : Fin 2 → Fin S200000x1x1.rank)
  bcast_S_S200000x1x1 : S_.BroadcastsInDim S200000x1x1 (![] : Fin 0 → Fin S200000x1x1.rank)
  slices_S200000x4_S200000x1_0_2 : S200000x4.Slices ![0, 2] S200000x1
  slices_S200000x32x4_S200000x32x1_0_0_0 : S200000x32x4.Slices ![0, 0, 0] S200000x32x1
  bcast_S200000x1x1_S200000x32x1_0_1_2 : S200000x1x1.BroadcastsInDim S200000x32x1 (![0, 1, 2] : Fin 3 → Fin S200000x32x1.rank)
  slices_S200000x32x4_S200000x32x1_0_0_1 : S200000x32x4.Slices ![0, 0, 1] S200000x32x1
  slices_S200000x32x4_S200000x32x2_0_0_2 : S200000x32x4.Slices ![0, 0, 2] S200000x32x2
  concatenates_S200000x32x1_S200000x32x1_S200000x32x2_S200000x32x3_S200000x32x1_S200000x32x1_S200000x32x9_d2 : Shape.Concatenates [S200000x32x1, S200000x32x1, S200000x32x2, S200000x32x3, S200000x32x1, S200000x32x1] S200000x32x9 2
  bcast_S32_S1x32_1 : S32.BroadcastsInDim S1x32 (![1] : Fin 1 → Fin S1x32.rank)
  bcast_S200000_S200000x1_0 : S200000.BroadcastsInDim S200000x1 (![0] : Fin 1 → Fin S200000x1.rank)
  bcast_S1x32_S200000x32_0_1 : S1x32.BroadcastsInDim S200000x32 (![0, 1] : Fin 2 → Fin S200000x32.rank)
  bcast_S200000x1_S200000x32_0_1 : S200000x1.BroadcastsInDim S200000x32 (![0, 1] : Fin 2 → Fin S200000x32.rank)
  bcast_S200000x32_S200000x32x1_0_1 : S200000x32.BroadcastsInDim S200000x32x1 (![0, 1] : Fin 2 → Fin S200000x32x1.rank)
  bcast_S200000x32x1_S200000x32x9_0_1_2 : S200000x32x1.BroadcastsInDim S200000x32x9 (![0, 1, 2] : Fin 3 → Fin S200000x32x9.rank)
  transposes_S200000x32x9_S200000x9x32_0_2_1 : S200000x32x9.Transposes [0, 2, 1] S200000x9x32

variable [Facts₀]

class Facts : Prop extends Facts₀ where

variable [Facts]
-- ==== Proof.PillarSpec.lean ====
/-
  One pillar of a point cloud, as the feature encoder sees it: 32 point slots of 4 channels (x, y, z, w), the
  pillar's cell indices along x and y, and the number n of slots that hold a real point. The encoder emits 9
  channels per slot: the offsets of x and y from the cell's centre (cell index * 0.16 + 0.08, the two float words
  taken as they are printed), z and w unchanged, the offsets of x, y and z from the pillar's arithmetic mean
  (the sum over all 32 slots divided by n), and the two centre offsets once more; every channel is multiplied by
  the slot mask, 1 for a slot k < n (signed) and 0 otherwise. Everything is read on the extended reals; nothing here
  needs the entries to be finite, since both programs build the same tree of operations.
-/
import Idealize.ShloMosaic.PureOps.Ideal
import Idealize.ShloMosaic.Lib.ValueIdx

noncomputable section

namespace Cert.Pillar

open Idealize.ShloMosaic Idealize.ShloMosaic.ValueIdx

/-- The centre of cell `c` along one axis: `c * 0.16 + 0.08`, with the two binary32 words read exactly. -/
def centre (c : BitVec 32) : EReal :=
  ((c.toInt : ℝ) : EReal) * Ideal.ofBits .f32 0x3E23D70A#32 + Ideal.ofBits .f32 0x3DA3D70A#32

/-- The slot mask: `1` when slot `k` is below the signed count `n`, else `0`. -/
def slot (n : BitVec 32) (k : Fin 32) : EReal :=
  (((IntOp.cmpi .slt (BitVec.ofNat 32 k.val) n).toNat : ℝ) : EReal)

/-- The mean of channel `ch` over the pillar: the sum over all 32 slots divided by the count. -/
def mean (row : Fin 32 → Fin 4 → EReal) (n : BitVec 32) (ch : Fin 4) : EReal :=
  Ideal.div (∑ k : Fin 32, row k ch) ((n.toInt : ℝ) : EReal)

/-- The nine channels of slot `k` before masking. -/
def chan (row : Fin 32 → Fin 4 → EReal) (c1 c2 n : BitVec 32) (ch : Fin 9) (k : Fin 32) : EReal :=
  match ch with
  | ⟨0, _⟩ => row k 0 - centre c1
  | ⟨1, _⟩ => row k 1 - centre c2
  | ⟨2, _⟩ => row k 2
  | ⟨3, _⟩ => row k 3
  | ⟨4, _⟩ => row k 0 - mean row n 0
  | ⟨5, _⟩ => row k 1 - mean row n 1
  | ⟨6, _⟩ => row k 2 - mean row n 2
  | ⟨7, _⟩ => row k 0 - centre c1
  | ⟨_ + 8, _⟩ => row k 1 - centre c2

/-- Channel `ch` of slot `k` of the encoded pillar. -/
def feat (row : Fin 32 → Fin 4 → EReal) (c1 c2 n : BitVec 32) (ch : Fin 9) (k : Fin 32) : EReal :=
  chan row c1 c2 n ch k * slot n k

/-- The whole encoded cloud: pillar `p`, channel `ch`, slot `k` of 200000 pillars, from the point array, the
    cell-index array and the counts kept as a column. -/
def cloudAt (P : (⟨3, ![200000, 32, 4]⟩ : Shape).Idx → EReal) (C : (⟨2, ![200000, 4]⟩ : Shape).Idx → BitVec 32)
    (N : (⟨2, ![200000, 1]⟩ : Shape).Idx → BitVec 32) (p : Fin 200000) (ch : Fin 9) (k : Fin 32) : EReal :=
  feat (fun k' c => P (ix3 p k' c)) (C (ix2 p 1)) (C (ix2 p 2)) (N (ix2 p 0)) ch k

/-- The same as one array of shape [200000, 9, 32]. -/
def cloud (P : (⟨3, ![200000, 32, 4]⟩ : Shape).Idx → EReal) (C : (⟨2, ![200000, 4]⟩ : Shape).Idx → BitVec 32)
    (N : (⟨2, ![200000, 1]⟩ : Shape).Idx → BitVec 32) : (⟨3, ![200000, 9, 32]⟩ : Shape).Idx → EReal :=
  fun i => cloudAt P C N (i 0) (i 1) (i 2)

theorem cloud_ix3 (P : (⟨3, ![200000, 32, 4]⟩ : Shape).Idx → EReal) (C : (⟨2, ![200000, 4]⟩ : Shape).Idx → BitVec 32)
    (N : (⟨2, ![200000, 1]⟩ : Shape).Idx → BitVec 32) (p : Fin 200000) (ch : Fin 9) (k : Fin 32) :
    cloud P C N (ix3 p ch k) = cloudAt P C N p ch k := rfl

/-- One tile of 400 pillars, the same function at the tile's shapes. -/
def tileAt (P : (⟨3, ![400, 32, 4]⟩ : Shape).Idx → EReal) (C : (⟨2, ![400, 4]⟩ : Shape).Idx → BitVec 32)
    (N : (⟨2, ![400, 1]⟩ : Shape).Idx → BitVec 32) (r : Fin 400) (ch : Fin 9) (k : Fin 32) : EReal :=
  feat (fun k' c => P (ix3 r k' c)) (C (ix2 r 1)) (C (ix2 r 2)) (N (ix2 r 0)) ch k

def tile (P : (⟨3, ![400, 32, 4]⟩ : Shape).Idx → EReal) (C : (⟨2, ![400, 4]⟩ : Shape).Idx → BitVec 32)
    (N : (⟨2, ![400, 1]⟩ : Shape).Idx → BitVec 32) : (⟨3, ![400, 9, 32]⟩ : Shape).Idx → EReal :=
  fun y => tileAt P C N (y 0) (y 1) (y 2)

theorem tile_ix3 (P : (⟨3, ![400, 32, 4]⟩ : Shape).Idx → EReal) (C : (⟨2, ![400, 4]⟩ : Shape).Idx → BitVec 32)
    (N : (⟨2, ![400, 1]⟩ : Shape).Idx → BitVec 32) (r : Fin 400) (ch : Fin 9) (k : Fin 32) :
    tile P C N (ix3 r ch k) = tileAt P C N r ch k := rfl

/-- A one-bit word widened to 32 bits reads the same signed as the bit reads unsigned: the kernel converts its
    mask through a 32-bit integer, the reference converts the bit itself. -/
theorem toInt_setWidth_bit (b : BitVec 1) : (b.setWidth 32).toInt = (b.toNat : Int) := by
  revert b; decide

/-- So both conversions of a comparison bit give the slot mask. -/
theorem slot_of_widened (n : BitVec 32) (k : Fin 32) :
    ((((IntOp.cmpi .slt (BitVec.ofNat 32 k.val) n).setWidth 32).toInt : ℝ) : EReal) = slot n k := by
  unfold slot
  rw [toInt_setWidth_bit]
  norm_cast

end Cert.Pillar

end
-- ==== Proof.RefCloud.lean ====
/-
  The reference's result array, read index by index, is the encoded cloud of the specification: at pillar p,
  channel ch, slot k the transposed product of the nine-channel concatenation with the broadcast mask is
  (channel ch of slot k) * (mask of slot k). The centre offsets come from the integer cell indices converted
  exactly and scaled by the two printed words; the mean offsets from the host sum over the 32 slots (its initial
  value is the zero word, and 0 + s = s on the extended reals) divided by the converted count; the mask from the
  comparison bit converted unsigned. The concatenation along the channel axis is read piece by piece: a channel's
  coordinate falls in exactly one of the six operands.
-/
import proofs.«134844_j24386824307259_1_alg».proof.Proof.Gen.ReferenceIdeal.Read
import proofs.«134844_j24386824307259_1_alg».proof.Proof.PillarSpec
import Idealize.ShloMosaic.Lib.ValueIdx
import Idealize.ShloMosaic.Lib.Pipeline.Value
import Idealize.ShloMosaic.PureOps.Ideal.Laws

noncomputable section

namespace Cert.Pillar.Ref

open Cert.ReferenceIdeal Cert.ReferenceIdeal.Read Idealize.ShloMosaic Idealize.ShloMosaic.ValueIdx Cert.Pillar

variable (x0 : (⟨S200000x32x4, .f32⟩ : BufTy).Contents (Elt Ideal)) (x1 : (⟨S200000x4, .i32⟩ : BufTy).Contents (Elt Ideal))
  (x2 : (⟨S200000, .i32⟩ : BufTy).Contents (Elt Ideal))

/-- The x offset from the cell centre, as the reference computes it, at pillar `p` and slot `k`. -/
theorem offx_at (p : Fin 200000) (k : Fin 32) (z : Fin 1) :
    val_main_v26 (F := Ideal) x0 x1 (ix3 p k z) = x0 (ix3 p k 0) - centre (x1 (ix2 p 1)) := by
  have e1 : idx_main_v24 (ix3 p k z) = ix3 p k (0 : Fin 4) :=
    funext fun a => Fin.ext (by
      have hz : z.val = 0 := by have := z.isLt; omega
      match a with
      | ⟨0, _⟩ => rfl
      | ⟨1, _⟩ => rfl
      | ⟨2, _⟩ => exact hz)
  have e2 : idx_main_v10 (idx_main_v11 (idx_main_v25 (ix3 p k z))) = ix2 p (1 : Fin 4) :=
    funext fun a => Fin.ext (by match a with | ⟨0, _⟩ => rfl | ⟨1, _⟩ => rfl)
  rw [val_main_v26_apply, val_main_v24_apply, val_main_v25_apply, val_main_v16_apply, val_main_v14_apply, val_main_v12_apply,
    val_main_v11_apply, val_main_v10_apply, val_main_v13_apply, val_main_cst_0_apply, val_main_v15_apply, val_main_cst_1_apply, e1, e2]
  rfl

/-- The y offset from the cell centre (the reference uses the same two words for both axes). -/
theorem offy_at (p : Fin 200000) (k : Fin 32) (z : Fin 1) :
    val_main_v29 (F := Ideal) x0 x1 (ix3 p k z) = x0 (ix3 p k 1) - centre (x1 (ix2 p 2)) := by
  have e1 : idx_main_v27 (ix3 p k z) = ix3 p k (1 : Fin 4) :=
    funext fun a => Fin.ext (by
      have hz : z.val = 0 := by have := z.isLt; omega
      match a with
      | ⟨0, _⟩ => rfl
      | ⟨1, _⟩ => rfl
      | ⟨2, _⟩ => show 1 + z.val = 1; omega)
  have e2 : idx_main_v17 (idx_main_v18 (idx_main_v28 (ix3 p k z))) = ix2 p (2 : Fin 4) :=
    funext fun a => Fin.ext (by match a with | ⟨0, _⟩ => rfl | ⟨1, _⟩ => rfl)
  rw [val_main_v29_apply, val_main_v27_apply, val_main_v28_apply, val_main_v23_apply, val_main_v21_apply, val_main_v19_apply,
    val_main_v18_apply, val_main_v17_apply, val_main_v20_apply, val_main_cst_2_apply, val_main_v22_apply, val_main_cst_3_apply, e1, e2]
  rfl

/-- Channels z and w pass through: the slice [2:4] of the point's four channels. -/
theorem zw_at (p : Fin 200000) (k : Fin 32) (z : Fin 2) :
    val_main_v30 (F := Ideal) x0 (ix3 p k z) = x0 (ix3 p k ⟨2 + z.val, by have := z.isLt; omega⟩) := by
  rw [val_main_v30_apply]
  exact congrArg x0 (funext fun a => Fin.ext (by match a with | ⟨0, _⟩ => rfl | ⟨1, _⟩ => rfl | ⟨2, _⟩ => rfl))

/-- The offset of channel `z` (x, y or z) of slot `k` from the pillar's mean of that channel. -/
theorem meanoff_at (p : Fin 200000) (k : Fin 32) (z : Fin 3) :
    val_main_v9 (F := Ideal) x0 x2 (ix3 p k z)
      = x0 (ix3 p k ⟨z.val, by have := z.isLt; omega⟩)
        - mean (fun k' c => x0 (ix3 p k' c)) (x2 (ix1 p)) ⟨z.val, by have := z.isLt; omega⟩ := by
  have e1 : idx_main_v7 (ix3 p k z) = ix3 p k (⟨z.val, by have := z.isLt; omega⟩ : Fin 4) :=
    funext fun a => Fin.ext (by match a with | ⟨0, _⟩ => rfl | ⟨1, _⟩ => rfl | ⟨2, _⟩ => rfl)
  have e2 : ∀ k' : Fin 32, idx_main_v1 (idx_main_v2 (idx_main_v3 (idx_main_v8 (ix3 p k z))) k') = ix3 p k' (⟨z.val, by have := z.isLt; omega⟩ : Fin 4) :=
    fun k' => funext fun a => Fin.ext (by match a with | ⟨0, _⟩ => rfl | ⟨1, _⟩ => rfl | ⟨2, _⟩ => rfl)
  have e3 : idx_main_v4 (idx_main_v5 (idx_main_v8 (ix3 p k z))) = ix1 p :=
    funext fun a => Fin.ext (by match a with | ⟨0, _⟩ => rfl)
  rw [val_main_v9_apply, val_main_v7_apply, val_main_v8_apply, val_main_v6_apply, val_main_v3_apply, val_main_v2_apply,
    val_main_v5_apply, val_main_v4_apply, val_main_v0_apply, val_main_cst_apply, e1, e3]
  simp only [val_main_v1_apply, e2]
  show x0 _ - Ideal.div (Ideal.ofBits .f32 0x00000000#32 + _) _ = _
  rw [Ideal.ofBits_zero_f32, zero_add]
  rfl

/-- The slot mask the reference multiplies by, at any channel. -/
theorem mask_at (p : Fin 200000) (k : Fin 32) (ch : Fin 9) :
    val_main_v40 (F := Ideal) x2 (ix3 p k ch) = slot (x2 (ix1 p)) k := by
  have e2 : idx_main_v34 (idx_main_v36 (idx_main_v38 (idx_main_v40 (ix3 p k ch)))) = ix1 p :=
    funext fun a => Fin.ext (by match a with | ⟨0, _⟩ => rfl)
  rw [val_main_v40_apply, val_main_v39_apply, val_main_v38_apply, val_main_v37_apply, val_main_v35_apply, val_main_v33_apply,
    val_main_v32_apply, val_main_v36_apply, val_main_v34_apply, e2]
  rfl

/-- A concatenation of [200000, 32, w] pieces along the channel axis, read at pillar `p`, slot `k`, channel `ch`:
    the piece whose span `pre ≤ ch < pre + w` holds the channel, at its own channel `ch - pre`. -/
theorem cat_at {w : Nat} (xs : List ((s : Shape) × (s.Idx → EReal))) (h : Shape.Concatenates (xs.map (·.1)) S200000x32x9 2)
    (p : Fin 200000) (k : Fin 32) (ch : Fin 9) (n : Nat) (hn : n < xs.length)
    (x₁ : (⟨3, ![200000, 32, w]⟩ : Shape).Idx → EReal) (hx : xs[n] = ⟨⟨3, ![200000, 32, w]⟩, x₁⟩) (pre : Nat)
    (hpre : (((xs.take n).map (·.1)).map fun s => if h : s.rank = 3 then s.size ((2 : Fin 3).cast h.symm) else 0).sum = pre)
    (z : Fin w) (hz : pre + z.val = ch.val) :
    concatenate S200000x32x9 2 xs h (ix3 p k ch) = x₁ (ix3 p k z) :=
  concatenate_apply_piece (t := S200000x32x9) (2 : Fin 3) xs h (ix3 p k ch) n hn _ x₁ hx rfl pre hpre (ix3 p k z)
    (fun b hb => by match b with | ⟨0, _⟩ => rfl | ⟨1, _⟩ => rfl | ⟨2, _⟩ => exact absurd rfl hb) hz

/-- The nine channels before masking: the concatenation along the channel axis read at channel `ch`. -/
theorem chans_at (p : Fin 200000) (k : Fin 32) (ch : Fin 9) :
    val_main_v31 (F := Ideal) x0 x1 x2 (ix3 p k ch)
      = chan (fun k' c => x0 (ix3 p k' c)) (x1 (ix2 p 1)) (x1 (ix2 p 2)) (x2 (ix1 p)) ch k := by
  unfold val_main_v31
  match ch with
  | ⟨0, _⟩ =>
    refine Eq.trans (cat_at _ _ p k _ 0 ?_ (val_main_v26 (F := Ideal) x0 x1) rfl 0 rfl (0 : Fin 1) rfl) (offx_at x0 x1 p k 0)
    simp
  | ⟨1, _⟩ =>
    refine Eq.trans (cat_at _ _ p k _ 1 ?_ (val_main_v29 (F := Ideal) x0 x1) rfl 1 rfl (0 : Fin 1) rfl) (offy_at x0 x1 p k 0)
    simp
  | ⟨2, _⟩ =>
    refine Eq.trans (cat_at _ _ p k _ 2 ?_ (val_main_v30 (F := Ideal) x0) rfl 2 rfl (0 : Fin 2) rfl) (zw_at x0 p k 0)
    simp
  | ⟨3, _⟩ =>
    refine Eq.trans (cat_at _ _ p k _ 2 ?_ (val_main_v30 (F := Ideal) x0) rfl 2 rfl (1 : Fin 2) rfl) (zw_at x0 p k 1)
    simp
  | ⟨4, _⟩ =>
    refine Eq.trans (cat_at _ _ p k _ 3 ?_ (val_main_v9 (F := Ideal) x0 x2) rfl 4 rfl (0 : Fin 3) rfl) (meanoff_at x0 x2 p k 0)
    simp
  | ⟨5, _⟩ =>
    refine Eq.trans (cat_at _ _ p k _ 3 ?_ (val_main_v9 (F := Ideal) x0 x2) rfl 4 rfl (1 : Fin 3) rfl) (meanoff_at x0 x2 p k 1)
    simp
  | ⟨6, _⟩ =>
    refine Eq.trans (cat_at _ _ p k _ 3 ?_ (val_main_v9 (F := Ideal) x0 x2) rfl 4 rfl (2 : Fin 3) rfl) (meanoff_at x0 x2 p k 2)
    simp
  | ⟨7, _⟩ =>
    refine Eq.trans (cat_at _ _ p k _ 4 ?_ (val_main_v26 (F := Ideal) x0 x1) rfl 7 rfl (0 : Fin 1) rfl) (offx_at x0 x1 p k 0)
    simp
  | ⟨8, _⟩ =>
    refine Eq.trans (cat_at _ _ p k _ 5 ?_ (val_main_v29 (F := Ideal) x0 x1) rfl 8 rfl (0 : Fin 1) rfl) (offy_at x0 x1 p k 0)
    simp
  | ⟨n + 9, h⟩ => exact absurd h (by omega)

/-- THE REFERENCE'S RESULT is the encoded cloud, the counts read as a column. -/
theorem result_eq : val_main_v42 (F := Ideal) x0 x1 x2 = cloud x0 x1 (fun i => x2 (ix1 (i 0))) := by
  funext i
  obtain ⟨p, ch, k, rfl⟩ : ∃ (p : Fin 200000) (ch : Fin 9) (k : Fin 32), i = ix3 p ch k := ⟨i 0, i 1, i 2, eq_ix3 i⟩
  have e : idx_main_v42 (ix3 p ch k) = ix3 p k ch :=
    funext fun a => Fin.ext (by match a with | ⟨0, _⟩ => rfl | ⟨1, _⟩ => rfl | ⟨2, _⟩ => rfl)
  rw [val_main_v42_apply, val_main_v41_apply, e, chans_at, mask_at, cloud_ix3]
  rfl

end Cert.Pillar.Ref

end
-- ==== Proof.KernelTile.lean ====
/-
  What the kernel body leaves in its output tile: for a tile of 400 pillars the nine stores, one per channel
  (each a [400, 1, 32] slab of the [400, 9, 32] staging buffer), together hold the encoded tile of the
  specification. Each stored value is a product (channel) * (mask) laid out as a slab; the channels are lane
  slices of the point block, minus either the cell centre (a column computed from the integer block and broadcast
  along the 32 slots) or the row mean (the lane sum over the 32 slots divided by the converted count, kept as
  a column and broadcast). The nine slabs tile the buffer, so the buffer after the body is one function of its index.
-/
import proofs.«134844_j24386824307259_1_alg».proof.Proof.Gen.KernelIdeal.Frame
import proofs.«134844_j24386824307259_1_alg».proof.Proof.PillarSpec
import Idealize.ShloMosaic.Lib.ValueIdx
import Idealize.ShloMosaic.Lib.Pipeline.Value
import Idealize.ShloMosaic.PureOps.Ideal.Laws

noncomputable section

namespace Cert.Pillar.Tile

open Cert.KernelIdeal Cert.KernelIdeal.Gen Idealize.ShloMosaic Idealize.ShloMosaic.ValueIdx Cert.Pillar

/-! ## The layout operations of the body, read at an index of the tile -/

section Layout
variable {α : Type}

/-- Channel `o` of the point block viewed as [400, 32]: the lane slice at `o` with its unit axis dropped. -/
theorem pick_at (o : Nat) (ho : o < 4) (x : S400x32x4.Idx → α) (hs : S400x32x4.Slices ![0, 0, o] S400x32x1)
    (hc : S400x32x1.ShapeCasts S400x32) (r : Fin 400) (k : Fin 32) :
    shapeCast S400x32 (extractStridedSlice S400x32x1 ![0, 0, o] x hs) hc (ix2 r k) = x (ix3 r k ⟨o, ho⟩) := by
  refine (shapeCast_apply _ hc (ix2 r k) (ix3 r k (0 : Fin 1)) ?_).trans ?_
  · rw [Shape.rowMajor_val_three, Shape.rowMajor_val_two]
    show (r.val * 32 + k.val) * 1 + 0 = r.val * 32 + k.val
    omega
  · exact extractStridedSlice_apply ![0, 0, o] x hs (ix3 r k (0 : Fin 1)) (ix3 r k ⟨o, ho⟩) (fun a => match a with
      | ⟨0, _⟩ => by show r.val = 0 + r.val; omega
      | ⟨1, _⟩ => by show k.val = 0 + k.val; omega
      | ⟨2, _⟩ => by show o = o + 0; omega)

/-- Column `o` of the cell-index block, kept as a [400, 1] column. -/
theorem cellcol_at (o : Nat) (ho : o < 4) (x : S400x4.Idx → α) (hs : S400x4.Slices ![0, o] S400x1) (r : Fin 400) (z : Fin 1) :
    extractStridedSlice S400x1 ![0, o] x hs (ix2 r z) = x (ix2 r ⟨o, ho⟩) :=
  extractStridedSlice_apply ![0, o] x hs (ix2 r z) (ix2 r ⟨o, ho⟩) (fun a => match a with
    | ⟨0, _⟩ => by show r.val = 0 + r.val; omega
    | ⟨1, _⟩ => by show o = o + z.val; have := z.isLt; omega)

/-- A [400, 1] column broadcast along the 32 slots reads the column's row. -/
theorem col_at (v : S400x1.Idx → α) (h : S400x1.Broadcasts S400x32) (r : Fin 400) (k : Fin 32) :
    broadcastTo S400x32 v h (ix2 r k) = v (ix2 r 0) :=
  broadcastTo_apply v h (ix2 r k) (ix2 r (0 : Fin 1)) (fun a => match a with
    | ⟨0, _⟩ => by show r.val = if (400 : Nat) = 1 then 0 else r.val; rw [if_neg (by decide)]
    | ⟨1, _⟩ => by show 0 = if (1 : Nat) = 1 then 0 else k.val; rw [if_pos rfl])

/-- A [400] vector kept as a [400, 1] column. -/
theorem keepcol_at (w : S400.Idx → α) (hc : S400.ShapeCasts S400x1) (r : Fin 400) (z : Fin 1) :
    shapeCast S400x1 w hc (ix2 r z) = w (ix1 r) :=
  shapeCast_apply w hc (ix2 r z) (ix1 r) (by
    rw [Shape.rowMajor_val_one, Shape.rowMajor_val_two]
    show r.val = r.val * 1 + z.val
    have := z.isLt; omega)

/-- A [400, 32] value stored as a [400, 1, 32] slab. -/
theorem slab_at (A : S400x32.Idx → α) (hc : S400x32.ShapeCasts S400x1x32) (r : Fin 400) (z : Fin 1) (k : Fin 32) :
    shapeCast S400x1x32 A hc (ix3 r z k) = A (ix2 r k) :=
  shapeCast_apply A hc (ix3 r z k) (ix2 r k) (by
    rw [Shape.rowMajor_val_three, Shape.rowMajor_val_two]
    show r.val * 32 + k.val = (r.val * 1 + z.val) * 32 + k.val
    have := z.isLt; omega)

end Layout

/-- The lane sum over the 32 slots, kept as a column, is the plain sum of the row on the extended reals. -/
theorem rowsum_at (A : FVec Ideal S400x32 .f32) (hred : S400x32.Reduces [1] S400) (hφ : FKind.Formats .f32)
    (hacc : (0x00000000#32 : BitVec 32) = FKind.add.neutral .f32 hφ) (hc : S400.ShapeCasts S400x1) (r : Fin 400) (z : Fin 1) :
    shapeCast S400x1 (multiReduction .add [1] S400 A 0x00000000#32 hred hφ hacc) hc (ix2 r z) = ∑ k : Fin 32, A (ix2 r k) := by
  rw [keepcol_at]
  refine (Ideal.multiReduction_add_single A _ hred hφ hacc (ix1 r)).trans ?_
  exact Finset.sum_congr rfl fun k _ => congrArg A (funext fun a => Fin.ext (by match a with | ⟨0, _⟩ => rfl | ⟨1, _⟩ => rfl))

/-! ## The body's values at an index of the tile, on the extended reals -/

section Payloads

variable (x0 : Vec Ideal S400x32x4 .f32) (x1 : Vec Ideal S400x4 .i32) (x2 : Vec Ideal S400x1 .i32)

theorem x_at (r : Fin 400) (k : Fin 32) : k0_pay4 (F := Ideal) x0 (ix2 r k) = x0 (ix3 r k 0) :=
  pick_at 0 (by decide) x0 _ _ r k
theorem y_at (r : Fin 400) (k : Fin 32) : k0_pay5 (F := Ideal) x0 (ix2 r k) = x0 (ix3 r k 1) :=
  pick_at 1 (by decide) x0 _ _ r k
theorem z_at (r : Fin 400) (k : Fin 32) : k0_pay6 (F := Ideal) x0 (ix2 r k) = x0 (ix3 r k 2) :=
  pick_at 2 (by decide) x0 _ _ r k
theorem w_at (r : Fin 400) (k : Fin 32) : k0_pay7 (F := Ideal) x0 (ix2 r k) = x0 (ix3 r k 3) :=
  pick_at 3 (by decide) x0 _ _ r k

/-- The count of a pillar, converted exactly. -/
theorem count_at (r : Fin 400) (z : Fin 1) :
    k0_pay8 (F := Ideal) x2 (ix2 r z) = (((x2 (ix2 r z)).toInt : ℝ) : EReal) := by
  unfold k0_pay8
  rw [shapeCast_self]
  rfl

/-- The slot mask of the body: the comparison of the slot number with the count, widened and converted. -/
theorem mask_at (r : Fin 400) (k : Fin 32) :
    k0_pay14 (F := Ideal) (iota .tc S400x32 32 [1] iota_S400x32_d1_w32) x2 (ix2 r k) = slot (x2 (ix2 r 0)) k := by
  unfold k0_pay14
  rw [shapeCast_self]
  show ((((IntOp.cmpi .slt (iota .tc S400x32 32 [1] iota_S400x32_d1_w32 (ix2 r k))
      (broadcastTo S400x32 x2 broadcasts_S400x1_S400x32 (ix2 r k))).setWidth 32).toInt : ℝ) : EReal) = _
  rw [col_at, iota_single_apply]
  exact slot_of_widened _ k

/-- x minus the centre of the pillar's cell along x. -/
theorem offx_at (r : Fin 400) (k : Fin 32) :
    k0_pay9 (F := Ideal) x0 x1 (ix2 r k) = x0 (ix3 r k 0) - centre (x1 (ix2 r 1)) := by
  unfold k0_pay9
  rw [subf_apply, x_at, col_at, addf_apply, mulf_apply, sitofp_apply, cellcol_at 1 (by decide)]
  rfl

/-- y minus the centre of the pillar's cell along y. -/
theorem offy_at (r : Fin 400) (k : Fin 32) :
    k0_pay10 (F := Ideal) x0 x1 (ix2 r k) = x0 (ix3 r k 1) - centre (x1 (ix2 r 2)) := by
  unfold k0_pay10
  rw [subf_apply, y_at, col_at, addf_apply, mulf_apply, sitofp_apply, cellcol_at 2 (by decide)]
  rfl

/-- x minus the pillar's mean of x. -/
theorem meanx_at (r : Fin 400) (k : Fin 32) :
    k0_pay11 (F := Ideal) x0 x2 (ix2 r k) = x0 (ix3 r k 0) - mean (fun k' c => x0 (ix3 r k' c)) (x2 (ix2 r 0)) 0 := by
  unfold k0_pay11
  rw [subf_apply, x_at, col_at, divf_apply]
  refine congrArg (x0 (ix3 r k 0) - ·) ?_
  refine congrArg₂ Ideal.div ((rowsum_at _ _ _ _ _ r 0).trans ?_) (count_at x2 r 0)
  exact Finset.sum_congr rfl fun k' _ => x_at x0 r k'

/-- y minus the pillar's mean of y. -/
theorem meany_at (r : Fin 400) (k : Fin 32) :
    k0_pay12 (F := Ideal) x0 x2 (ix2 r k) = x0 (ix3 r k 1) - mean (fun k' c => x0 (ix3 r k' c)) (x2 (ix2 r 0)) 1 := by
  unfold k0_pay12
  rw [subf_apply, y_at, col_at, divf_apply]
  refine congrArg (x0 (ix3 r k 1) - ·) ?_
  refine congrArg₂ Ideal.div ((rowsum_at _ _ _ _ _ r 0).trans ?_) (count_at x2 r 0)
  exact Finset.sum_congr rfl fun k' _ => y_at x0 r k'

/-- z minus the pillar's mean of z. -/
theorem meanz_at (r : Fin 400) (k : Fin 32) :
    k0_pay13 (F := Ideal) x0 x2 (ix2 r k) = x0 (ix3 r k 2) - mean (fun k' c => x0 (ix3 r k' c)) (x2 (ix2 r 0)) 2 := by
  unfold k0_pay13
  rw [subf_apply, z_at, col_at, divf_apply]
  refine congrArg (x0 (ix3 r k 2) - ·) ?_
  refine congrArg₂ Ideal.div ((rowsum_at _ _ _ _ _ r 0).trans ?_) (count_at x2 r 0)
  exact Finset.sum_congr rfl fun k' _ => z_at x0 r k'

end Payloads

/-! ## The nine stored slabs, and the tile they make -/

section Slabs

variable (x0 : Vec Ideal S400x32x4 .f32) (x1 : Vec Ideal S400x4 .i32) (x2 : Vec Ideal S400x1 .i32)

/-- A slab [400, 1, 32] placed at channel `j` of the [400, 9, 32] buffer: its element (r, 0, k) sits at (r, j, k). -/
theorem slab_emb (j : Nat) (hj : j < 9) (inb : ∀ a, (![0, j, 0] : Fin 3 → Nat) a + S400x1x32.size a ≤ S400x9x32.size a)
    (r : Fin 400) (z : Fin 1) (k : Fin 32) :
    (Rect.unit (s := S400x9x32) ![0, j, 0] S400x1x32.size inb).emb (ix3 r z k) = ix3 r ⟨j, hj⟩ k :=
  funext fun a => Fin.ext (by
    have hz : z.val = 0 := by have := z.isLt; omega
    match a with
    | ⟨0, _⟩ => show 0 + 1 * r.val = r.val; omega
    | ⟨1, _⟩ => show j + 1 * z.val = j; omega
    | ⟨2, _⟩ => show 0 + 1 * k.val = k.val; omega)

theorem slab0_at (r : Fin 400) (z : Fin 1) (k : Fin 32) :
    k0_pay15 (F := Ideal) (k0_pay9 x0 x1) (iota .tc S400x32 32 [1] iota_S400x32_d1_w32) x2 (ix3 r z k) = tileAt x0 x1 x2 r 0 k := by
  unfold k0_pay15
  rw [slab_at, mulf_apply, offx_at, mask_at]
  rfl
theorem slab1_at (r : Fin 400) (z : Fin 1) (k : Fin 32) :
    k0_pay16 (F := Ideal) (k0_pay10 x0 x1) (iota .tc S400x32 32 [1] iota_S400x32_d1_w32) x2 (ix3 r z k) = tileAt x0 x1 x2 r 1 k := by
  unfold k0_pay16
  rw [slab_at, mulf_apply, offy_at, mask_at]
  rfl
theorem slab2_at (r : Fin 400) (z : Fin 1) (k : Fin 32) :
    k0_pay17 (F := Ideal) (k0_pay6 x0) (iota .tc S400x32 32 [1] iota_S400x32_d1_w32) x2 (ix3 r z k) = tileAt x0 x1 x2 r 2 k := by
  unfold k0_pay17
  rw [slab_at, mulf_apply, z_at, mask_at]
  rfl
theorem slab3_at (r : Fin 400) (z : Fin 1) (k : Fin 32) :
    k0_pay18 (F := Ideal) (k0_pay7 x0) (iota .tc S400x32 32 [1] iota_S400x32_d1_w32) x2 (ix3 r z k) = tileAt x0 x1 x2 r 3 k := by
  unfold k0_pay18
  rw [slab_at, mulf_apply, w_at, mask_at]
  rfl
theorem slab4_at (r : Fin 400) (z : Fin 1) (k : Fin 32) :
    k0_pay19 (F := Ideal) (k0_pay11 x0 x2) (iota .tc S400x32 32 [1] iota_S400x32_d1_w32) x2 (ix3 r z k) = tileAt x0 x1 x2 r 4 k := by
  unfold k0_pay19
  rw [slab_at, mulf_apply, meanx_at, mask_at]
  rfl
theorem slab5_at (r : Fin 400) (z : Fin 1) (k : Fin 32) :
    k0_pay20 (F := Ideal) (k0_pay12 x0 x2) (iota .tc S400x32 32 [1] iota_S400x32_d1_w32) x2 (ix3 r z k) = tileAt x0 x1 x2 r 5 k := by
  unfold k0_pay20
  rw [slab_at, mulf_apply, meany_at, mask_at]
  rfl
theorem slab6_at (r : Fin 400) (z : Fin 1) (k : Fin 32) :
    k0_pay1 (F := Ideal) (k0_pay21 (k0_pay13 x0 x2) (iota .tc S400x32 32 [1] iota_S400x32_d1_w32) x2) (ix3 r z k) = tileAt x0 x1 x2 r 6 k := by
  unfold k0_pay1 k0_pay21
  rw [slab_at, mulf_apply, meanz_at, mask_at]
  rfl
theorem slab7_at (r : Fin 400) (z : Fin 1) (k : Fin 32) :
    k0_pay2 (F := Ideal) (k0_pay9 x0 x1) (k0_pay14 (iota .tc S400x32 32 [1] iota_S400x32_d1_w32) x2) (ix3 r z k) = tileAt x0 x1 x2 r 7 k := by
  unfold k0_pay2
  rw [slab_at, mulf_apply, offx_at, mask_at]
  rfl
theorem slab8_at (r : Fin 400) (z : Fin 1) (k : Fin 32) :
    k0_pay3 (F := Ideal) (k0_pay10 x0 x1) (k0_pay14 (iota .tc S400x32 32 [1] iota_S400x32_d1_w32) x2) (ix3 r z k) = tileAt x0 x1 x2 r 8 k := by
  unfold k0_pay3
  rw [slab_at, mulf_apply, offy_at, mask_at]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- A slab's payload agrees with the tile function under the slab, whatever its channel. -/
theorem under_slab (j : Nat) (hj : j < 9) (inb : ∀ a, (![0, j, 0] : Fin 3 → Nat) a + S400x1x32.size a ≤ S400x9x32.size a)
    (w : S400x1x32.Idx → EReal) (hw : ∀ (r : Fin 400) (z : Fin 1) (k : Fin 32), w (ix3 r z k) = tileAt x0 x1 x2 r ⟨j, hj⟩ k)
    (x : S400x1x32.Idx) : w x = tile x0 x1 x2 ((Rect.unit (s := S400x9x32) ![0, j, 0] S400x1x32.size inb).emb x) := by
  obtain ⟨r, z, k, rfl⟩ : ∃ (r : Fin 400) (z : Fin 1) (k : Fin 32), x = ix3 r z k := ⟨x 0, x 1, x 2, eq_ix3 x⟩
  rw [slab_emb j hj inb r z k, tile_ix3]
  exact hw r z k

/-- THE OUTPUT TILE after the body is the encoded tile of its three input blocks. -/
theorem tile_eq : out0_3 (F := Ideal) x0 x1 x2 = tile x0 x1 x2 := by
  funext y
  unfold out0_3
  simp only [View.ld_unit_zero (S := S400x32x4) hz3, View.ld_unit_zero (S := S400x4) hz2, View.ld_unit_zero (S := S400x1) hz2]
  refine View.canon_apply_of_pieces (Val := Elt Ideal) (S := S400x9x32) (e := .f32) (tile x0 x1 x2) _ (fun pc hpc => ?_) y (cover0_3 _ _ _ _ _ _ _ _ _ y)
  simp only [List.mem_cons, List.not_mem_nil, or_false] at hpc
  rcases hpc with rfl | rfl | rfl | rfl | rfl | rfl | rfl | rfl | rfl
  · exact under_slab x0 x1 x2 8 (by decide) inb_S400x9x32_S400x1x32_0_8_0 _ (slab8_at x0 x1 x2)
  · exact under_slab x0 x1 x2 7 (by decide) inb_S400x9x32_S400x1x32_0_7_0 _ (slab7_at x0 x1 x2)
  · exact under_slab x0 x1 x2 6 (by decide) inb_S400x9x32_S400x1x32_0_6_0 _ (slab6_at x0 x1 x2)
  · exact under_slab x0 x1 x2 5 (by decide) inb_S400x9x32_S400x1x32_0_5_0 _ (slab5_at x0 x1 x2)
  · exact under_slab x0 x1 x2 4 (by decide) inb_S400x9x32_S400x1x32_0_4_0 _ (slab4_at x0 x1 x2)
  · exact under_slab x0 x1 x2 3 (by decide) inb_S400x9x32_S400x1x32_0_3_0 _ (slab3_at x0 x1 x2)
  · exact under_slab x0 x1 x2 2 (by decide) inb_S400x9x32_S400x1x32_0_2_0 _ (slab2_at x0 x1 x2)
  · exact under_slab x0 x1 x2 1 (by decide) inb_S400x9x32_S400x1x32_0_1_0 _ (slab1_at x0 x1 x2)
  · exact under_slab x0 x1 x2 0 (by decide) inb_S400x9x32_S400x1x32_0_0_0 _ (slab0_at x0 x1 x2)

end Slabs

end Cert.Pillar.Tile

end
-- ==== Proof.CloudArray.lean ====
/-
  From tiles to the array. The grid has 500 points; point t stages pillars [400 t, 400 t + 400) of every operand and
  writes back tile t of the result, so the tiles are consecutive and cover the [200000, 9, 32] array exactly. What
  point t writes back is the encoded tile of its three input blocks, and a block of an operand is the operand read
  at row 400 t + r: so the flushed tile is tile t of ONE whole-array function, the encoded cloud of the operands as
  the region finds them. The counts reach the region as a [200000, 1] column, the host's reshape of the count
  vector; its row p is the count of pillar p. Hence after the run the result array is the encoded cloud of the
  three arguments.
-/
import proofs.«134844_j24386824307259_1_alg».proof.Proof.Gen.KernelIdeal.Value
import proofs.«134844_j24386824307259_1_alg».proof.Proof.KernelTile
import Idealize.ShloMosaic.Lib.StableHlo.Run

set_option maxRecDepth 16384

noncomputable section

namespace Cert.Pillar.Array

open Cert.KernelIdeal Cert.KernelIdeal.Gen Cert.KernelIdeal.Value Idealize.ShloMosaic Idealize.ShloMosaic.TcCoe Idealize.ShloMosaic.ValueIdx
open Idealize.SL.Sem
open Idealize.ShloMosaic.Pipeline (Dat)
open Cert.Pillar

variable (m : (ℓ : Loc nD τ sig) → Buf (Elt Ideal) ℓ) (ρ : Dev nD → PrngReg)

/-- The printed index maps, decided once over the 500 points: on the pillar axis every window's block index is the
    point's position, on the other axes it is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem pt_lt (t : Fin cfg0.N) : t.val < 500 := lt_of_lt_of_eq t.isLt N_0

/-- The counts as the region finds them: the host's reshape of the count vector into a column. -/
theorem counts_eq (c : Dev nD) :
    (V m c main_v0 : S200000x1.Idx → BitVec 32)
      = shapeCast S200000x1 (m ((c : Thread nD τ).loc main_arg2)) shapeCasts_S200000_S200000x1 := by
  dsimp only [Gen.V, Gen.hostOps0]
  after_results
  rfl

/-- Row `p` of that column is the count of pillar `p`. -/
theorem counts_at (c : Dev nD) (p : Fin 200000) (z : Fin 1) :
    (V m c main_v0 : S200000x1.Idx → BitVec 32) (ix2 p z) = m ((c : Thread nD τ).loc main_arg2) (ix1 p) := by
  rw [counts_eq]
  exact shapeCast_apply _ _ (ix2 p z) (ix1 p) (by
    rw [Shape.rowMajor_val_one, Shape.rowMajor_val_two]
    show p.val = p.val * 1 + z.val
    have := z.isLt; omega)

/-- A tile whose three blocks are rows [400 t, 400 t + 400) of three arrays is tile `t` of the arrays' encoded cloud. -/
theorem tile_of_rows (P : (⟨3, ![200000, 32, 4]⟩ : Shape).Idx → EReal) (C : (⟨2, ![200000, 4]⟩ : Shape).Idx → BitVec 32)
    (N : (⟨2, ![200000, 1]⟩ : Shape).Idx → BitVec 32)
    (X0 : (⟨3, ![400, 32, 4]⟩ : Shape).Idx → EReal) (X1 : (⟨2, ![400, 4]⟩ : Shape).Idx → BitVec 32)
    (X2 : (⟨2, ![400, 1]⟩ : Shape).Idx → BitVec 32) (t : Nat) (ht : t < 500)
    (h0 : ∀ (r : Fin 400) (k : Fin 32) (c : Fin 4), X0 (ix3 r k c) = P (ix3 ⟨t * 400 + r.val, by have := r.isLt; omega⟩ k c))
    (h1 : ∀ (r : Fin 400) (c : Fin 4), X1 (ix2 r c) = C (ix2 ⟨t * 400 + r.val, by have := r.isLt; omega⟩ c))
    (h2 : ∀ (r : Fin 400) (z : Fin 1), X2 (ix2 r z) = N (ix2 ⟨t * 400 + r.val, by have := r.isLt; omega⟩ z))
    (r : Fin 400) (ch : Fin 9) (k : Fin 32) :
    tileAt X0 X1 X2 r ch k = cloudAt P C N ⟨t * 400 + r.val, by have := r.isLt; omega⟩ ch k := by
  unfold tileAt cloudAt
  simp only [h0, h1, h2]

/-- The point block of point `t`: rows 400 t + r of the point array as the region finds it. -/
theorem points_blk (c : Dev nD) (t : Fin cfg0.N) (r : Fin 400) (k : Fin 32) (c' : Fin 4) :
    iblk m c 0 t (ix3 r k c') = V m c main_arg0 (ix3 ⟨t.val * 400 + r.val, by have := r.isLt; have := pt_lt t; omega⟩ k c') := by
  obtain ⟨e0, e1, e2, -⟩ := idx_facts t
  show V m c main_arg0 (((cfg0.win 0).blk t).view.emb (ix3 r k c')) = _
  refine congrArg (V m c main_arg0) (funext fun a => Fin.ext ?_)
  match a with
  | ⟨0, _⟩ => show win0_0.index t (0 : Fin 3) * 400 + 1 * r.val = t.val * 400 + r.val; rw [e0]; omega
  | ⟨1, _⟩ => show win0_0.index t (1 : Fin 3) * 32 + 1 * k.val = k.val; rw [e1]; omega
  | ⟨2, _⟩ => show win0_0.index t (2 : Fin 3) * 4 + 1 * c'.val = c'.val; rw [e2]; omega

/-- The cell-index block of point `t`. -/
theorem cells_blk (c : Dev nD) (t : Fin cfg0.N) (r : Fin 400) (c' : Fin 4) :
    iblk m c 1 t (ix2 r c') = V m c main_arg1 (ix2 ⟨t.val * 400 + r.val, by have := r.isLt; have := pt_lt t; omega⟩ c') := by
  obtain ⟨-, -, -, e0, e1, -⟩ := idx_facts t
  show V m c main_arg1 (((cfg0.win 1).blk t).view.emb (ix2 r c')) = _
  refine congrArg (V m c main_arg1) (funext fun a => Fin.ext ?_)
  match a with
  | ⟨0, _⟩ => show win0_1.index t (0 : Fin 2) * 400 + 1 * r.val = t.val * 400 + r.val; rw [e0]; omega
  | ⟨1, _⟩ => show win0_1.index t (1 : Fin 2) * 4 + 1 * c'.val = c'.val; rw [e1]; omega

/-- The count block of point `t`. -/
theorem counts_blk (c : Dev nD) (t : Fin cfg0.N) (r : Fin 400) (z : Fin 1) :
    iblk m c 2 t (ix2 r z) = V m c main_v0 (ix2 ⟨t.val * 400 + r.val, by have := r.isLt; have := pt_lt t; omega⟩ z) := by
  obtain ⟨-, -, -, -, -, e0, e1, -⟩ := idx_facts t
  show V m c main_v0 (((cfg0.win 2).blk t).view.emb (ix2 r z)) = _
  refine congrArg (V m c main_v0) (funext fun a => Fin.ext ?_)
  match a with
  | ⟨0, _⟩ => show win0_2.index t (0 : Fin 2) * 400 + 1 * r.val = t.val * 400 + r.val; rw [e0]; omega
  | ⟨1, _⟩ => show win0_2.index t (1 : Fin 2) * 1 + 1 * z.val = z.val; rw [e1]; omega

/-- WHAT POINT `t` WRITES BACK is tile `t` of the encoded cloud of the arrays as the region finds them. -/
theorem flushed_eq (c : Dev nD) (t : Fin cfg0.N) :
    (dats m 0 c).flushed 3 t
      = ((cfg0.win 3).blk t).view.read (Elt Ideal) (cloud (V m c main_arg0) (V m c main_arg1) (V m c main_v0)) := by
  rw [flushed3, Tile.tile_eq]
  obtain ⟨-, -, -, -, -, -, -, e0, e1, e2⟩ := idx_facts t
  funext j
  have hj0 : (j 0).val < 400 := (j 0).isLt
  have ej : ((cfg0.win 3).blk t).view.emb j
      = ix3 (⟨t.val * 400 + (j 0).val, by have := pt_lt t; omega⟩ : Fin 200000) (⟨(j 1).val, (j 1).isLt⟩ : Fin 9) (⟨(j 2).val, (j 2).isLt⟩ : Fin 32) := by
    funext a; apply Fin.ext
    match a with
    | ⟨0, _⟩ => show win0_3.index t (0 : Fin 3) * 400 + 1 * (j 0).val = t.val * 400 + (j 0).val; rw [e0]; omega
    | ⟨1, _⟩ => show win0_3.index t (1 : Fin 3) * 9 + 1 * (j 1).val = (j 1).val; rw [e1]; omega
    | ⟨2, _⟩ => show win0_3.index t (2 : Fin 3) * 32 + 1 * (j 2).val = (j 2).val; rw [e2]; omega
  show tile (iblk m c 0 t) (iblk m c 1 t) (iblk m c 2 t) j = cloud _ _ _ (((cfg0.win 3).blk t).view.emb j)
  rw [ej, cloud_ix3]
  exact tile_of_rows _ _ _ (iblk m c 0 t) (iblk m c 1 t) (iblk m c 2 t) t.val (pt_lt t)
    (points_blk m c t) (cells_blk m c t) (counts_blk m c t) ⟨(j 0).val, hj0⟩ ⟨(j 1).val, (j 1).isLt⟩ ⟨(j 2).val, (j 2).isLt⟩

/-- An index of the result array is in point `t`'s tile iff each coordinate is in the tile's range on its axis. -/
theorem mem_tile (t : Fin cfg0.N) (i : S200000x9x32.Idx) :
    i ∈ ((cfg0.win 3).blk t).view.set ↔ ∀ a : Fin 3, win0_3.index t a * S400x9x32.size a ≤ (i a).val ∧ (i a).val < win0_3.index t a * S400x9x32.size a + S400x9x32.size a := by
  show i ∈ ((View.whole main_v1).slice (win0_3.rect t)).set ↔ _
  rw [View.set_slice_whole, Rect.mem_set_unit]
  exact Iff.rfl

/-- Every index of the result array lies in a written tile: pillar p is in tile p / 400. -/
theorem covered (i : S200000x9x32.Idx) :
    ∃ t : Fin cfg0.N, (cfg0.win 3).flush t = true ∧ i ∈ ((cfg0.win 3).blk t).view.set := by
  have hi0 : (i 0).val < 200000 := (i 0).isLt
  have hi1 : (i 1).val < 9 := (i 1).isLt
  have hi2 : (i 2).val < 32 := (i 2).isLt
  have hN : cfg0.N = 500 := N_0
  let t : Fin cfg0.N := ⟨(i 0).val / 400, by rw [hN]; omega⟩
  obtain ⟨-, -, -, -, -, -, -, e0, e1, e2⟩ := idx_facts t
  have et : t.val = (i 0).val / 400 := rfl
  refine ⟨t, flush0_3 t, ?_⟩
  rw [mem_tile]
  intro a
  match a with
  | ⟨0, _⟩ => show win0_3.index t (0 : Fin 3) * 400 ≤ (i 0).val ∧ (i 0).val < win0_3.index t (0 : Fin 3) * 400 + 400; rw [e0, et]; omega
  | ⟨1, _⟩ => show win0_3.index t (1 : Fin 3) * 9 ≤ (i 1).val ∧ (i 1).val < win0_3.index t (1 : Fin 3) * 9 + 9; rw [e1]; omega
  | ⟨2, _⟩ => show win0_3.index t (2 : Fin 3) * 32 ≤ (i 2).val ∧ (i 2).val < win0_3.index t (2 : Fin 3) * 32 + 32; rw [e2]; omega

/-- THE RESULT ARRAY after the run: the encoded cloud of the three arguments. -/
theorem final (c : Dev nD) :
    (dats m 0 c).arrAt 3 cfg0.N
      = cloud (m ((c : Thread nD τ).loc main_arg0)) (m ((c : Thread nD τ).loc main_arg1))
          (fun i => m ((c : Thread nD τ).loc main_arg2) (ix1 (i 0))) := by
  rw [(dats m 0 c).arrAt_eq_of_cover 3 _ (fun t _ => flushed_eq m c t) covered, V_main_arg0, V_main_arg1]
  refine congrArg (cloud _ _) (funext fun i => ?_)
  obtain ⟨p, z, rfl⟩ : ∃ (p : Fin 200000) (z : Fin 1), i = ix2 p z := ⟨i 0, i 1, eq_ix2 i⟩
  exact counts_at m c p z

/-- The kernel's run, read: the result array holds the encoded cloud of the arguments, which are unchanged. -/
theorem run : θ_run defs (onTc (τ := τ) (main (F := Ideal))) ⟨m, fun _ => 0, ρ⟩ fun r => ∀ c : Dev nD,
      r.2.mem ((c : Thread nD τ).loc main_v1)
        = cloud (m ((c : Thread nD τ).loc main_arg0)) (m ((c : Thread nD τ).loc main_arg1))
            (fun i => m ((c : Thread nD τ).loc main_arg2) (ix1 (i 0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Pillar.Array

end
-- ==== Proof.lean ====
/-
  A point-pillar feature encoder against its array-level definition, over the extended reals.

  Input: 200000 pillars of 32 point slots with channels (x, y, z, w), each pillar's integer cell indices, and the
  number n of slots that hold a real point. Output, per pillar, 9 channels by 32 slots: x and y minus the centre of
  the pillar's cell (cell index * 0.16 + 0.08; the same two binary32 words on both sides, so they are never
  evaluated), z, w, then x, y, z minus the pillar's mean (the sum over all 32 slots divided by n), then the two
  centre offsets again; every channel times the slot mask [k < n]. The tiled program computes this 400 pillars at a
  time, storing each channel as a slab of its output tile; the array program slices, broadcasts, concatenates the
  channels along the last axis, multiplies by the mask and transposes. Index by index both are one function,
  `Cert.Pillar.feat`: the division is the same extended-real division of the same two operands on both sides, the
  lane sum and the host sum agree because the host's starts from the zero word (0 + s = s), and the mask is a
  comparison bit converted to 0 or 1 either directly or through a 32-bit word. No law is used that needs finite
  entries, so the precondition is never opened.

  The three frames are the programs' runs with the values dropped; the idealized program is the printed one read on
  the extended reals with nothing rewritten, so that conjunct is trivial.
-/
import proofs.«134844_j24386824307259_1_alg».proof.Defs
import proofs.«134844_j24386824307259_1_alg».proof.Proof.Gen.Kernel
import proofs.«134844_j24386824307259_1_alg».proof.Proof.Gen.Kernel.Skeleton
import proofs.«134844_j24386824307259_1_alg».proof.Proof.Gen.Kernel.Launch
import proofs.«134844_j24386824307259_1_alg».proof.Proof.Gen.Kernel.Points
import proofs.«134844_j24386824307259_1_alg».proof.Proof.Gen.Kernel.Frame
import proofs.«134844_j24386824307259_1_alg».proof.Proof.Gen.KernelIdeal
import proofs.«134844_j24386824307259_1_alg».proof.Proof.Gen.KernelIdeal.Skeleton
import proofs.«134844_j24386824307259_1_alg».proof.Proof.Gen.KernelIdeal.Launch
import proofs.«134844_j24386824307259_1_alg».proof.Proof.Gen.KernelIdeal.Points
import proofs.«134844_j24386824307259_1_alg».proof.Proof.Gen.KernelIdeal.Frame
import proofs.«134844_j24386824307259_1_alg».proof.Proof.Gen.ReferenceIdeal
import proofs.«134844_j24386824307259_1_alg».proof.Proof.Gen.Pre_finite_inputs
import proofs.«134844_j24386824307259_1_alg».proof.Proof.Gen.KernelIdeal.Value
import proofs.«134844_j24386824307259_1_alg».proof.Proof.Gen.ReferenceIdeal.Run
import proofs.«134844_j24386824307259_1_alg».proof.Proof.Gen.ReferenceIdeal.Read
import proofs.«134844_j24386824307259_1_alg».proof.Proof.RefCloud
import proofs.«134844_j24386824307259_1_alg».proof.Proof.CloudArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The array program's frame: its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the three arguments both programs end with the cell indices passed through and the
    result array holding the encoded cloud of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.Pillar.cloud (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun i => m ((c.tc : Thread Cert.KernelIdeal.nD Cert.KernelIdeal.τ).loc Cert.KernelIdeal.main_arg2) (ix1 (i 0))), ?_, ?_⟩
  · exact (θ_run Cert.KernelIdeal.defs _ _).mono
      (fun _ h c => ⟨(h c).2.2.1, (h c).1, (h c).2.1, (h c).2.2.1, (h c).2.2.2⟩) (Cert.Pillar.Array.run m ρ)
  · refine (θ_run Cert.ReferenceIdeal.defs _ _).mono
      (fun _ h c => ⟨(h c).1.trans (hagree c).2.1, (h c).2.1.trans ?_, (h c).2.2.1, (h c).2.2.2.1, (h c).2.2.2.2⟩)
      (Cert.ReferenceIdeal.Value.run (F := Ideal) m' ρ')
    rw [Cert.ReferenceIdeal.Read.val_main_v42_eq, Cert.Pillar.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
